-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S64x64 : Shape := ⟨2, ![64, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S64x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S64x64 : Shape := ⟨2, ![64, 64]⟩
abbrev S_ : Shape := ⟨0, ![]⟩
abbrev S64x64x64 : Shape := ⟨3, ![64, 64, 64]⟩
abbrev S4096x64 : Shape := ⟨2, ![4096, 64]⟩
abbrev S4096x64x64 : Shape := ⟨3, ![4096, 64, 64]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 19
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64x64, .f32⟩
  | .hbm, ⟨13, _⟩ => ⟨S4096x64, .f32⟩
  | .hbm, ⟨14, _⟩ => ⟨S4096x64x64, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S64x64 : S_.BroadcastsInDim S64x64 (![] : Fin 0 → Fin S64x64.rank)
  bcast_S64x64_S64x64x64_0_2 : S64x64.BroadcastsInDim S64x64x64 (![0, 2] : Fin 2 → Fin S64x64x64.rank)
  shapeCasts_S64x64x64_S4096x64 : S64x64x64.ShapeCasts S4096x64
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S64x64 : Shape := ⟨2, ![64, 64]⟩
abbrev S_ : Shape := ⟨0, ![]⟩
abbrev S64x64x64 : Shape := ⟨3, ![64, 64, 64]⟩
abbrev S4096x64 : Shape := ⟨2, ![4096, 64]⟩
abbrev S4096x64x64 : Shape := ⟨3, ![4096, 64, 64]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64x64, .f32⟩
  | .hbm, ⟨13, _⟩ => ⟨S4096x64, .f32⟩
  | .hbm, ⟨14, _⟩ => ⟨S4096x64x64, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x64x64_0_2 : S64x64.BroadcastsInDim S64x64x64 (![0, 2] : Fin 2 → Fin S64x64x64.rank)
  shapeCasts_S64x64x64_S4096x64 : S64x64x64.ShapeCasts S4096x64
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one step of the kernel body leaves behind, as a function of what it loaded — for any float instance.

  The body runs in one of three ways, by the position `k` of the step in its run of eight:
  first (`k = 0`): the accumulator is stored as zero, read back, and stored again with the step's product added;
  middle (`0 < k < 7`): the accumulator the step before left is read and stored with the step's product added;
  last (`k = 7`): as a middle step, and then the output block is stored as the new accumulator plus the bias row.
  In every case the accumulator ends at `k0_pay2 a w acc` (`acc` the zero block `k0_pay1` at a first step), and at a
  last step the output block ends at `k0_pay3 (k0_pay2 a w acc) b`.
-/
import proofs.«132578_j24232205484135_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The stores and loads of the body all start at the block's origin. -/
theorem hz : (![0, 0] : Fin 2 → Nat) = fun _ => 0 := funext fun a => by fin_cases a <;> rfl

/-- A first step leaves the accumulator at zero plus its product: the later store covers the earlier, and its
    operand is the earlier store read back. -/
theorem acc_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz]
  simp only [View.readAt_eq_ld, harg3.read_unread, harg4.read_unread, harg5.read_unread, harg7.read_unread,
    View.ld_unit_zero (S := S1024x512) hz, View.ld_unit_zero (S := S1024x1024) hz, View.ld_unit_zero (S := S1x1024) hz,
    View.readCov_unit_zero (S := S1024x1024) _ hz]

/-- A middle step leaves the accumulator at what it found plus its product. -/
theorem acc_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) hz]
  simp only [View.readAt_eq_ld, harg3.read_unread, harg4.read_unread, harg5.read_unread, harg7.read_unread,
    View.ld_unit_zero (S := S1024x512) hz, View.ld_unit_zero (S := S1024x1024) hz, View.ld_unit_zero (S := S1x1024) hz,
    View.readCov_unit_zero (S := S1024x1024) _ hz]

/-- A last step leaves the accumulator likewise … -/
theorem acc_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readAt_eq_ld, harg3.read_unread, harg4.read_unread, harg5.read_unread, harg7.read_unread,
    View.ld_unit_zero (S := S1024x512) hz, View.ld_unit_zero (S := S1024x1024) hz, View.ld_unit_zero (S := S1x1024) hz,
    View.readCov_unit_zero (S := S1024x1024) _ hz]

/-- … and the output block at that accumulator plus the bias row. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readAt_eq_ld, harg3.read_unread, harg4.read_unread, harg5.read_unread, harg7.read_unread,
    View.ld_unit_zero (S := S1024x512) hz, View.ld_unit_zero (S := S1024x1024) hz, View.ld_unit_zero (S := S1x1024) hz,
    View.readCov_unit_zero (S := S1024x1024) _ hz]

end Cert.KernelIdeal.Pieces

end
-- ==== Proof.PayloadAt.lean ====
/-
  The kernel body's stored values, read at one index of the [1024, 1024] block, over the extended reals.

  The body keeps an accumulator block. Its first store (at a run's first step) is the zero block. Its second store is
  the accumulator plus the product of the step's activation block [1024, 512] with the transpose of the step's weight
  block [1024, 512], the narrowing to bf16 being the identity on extended reals: at (p, q) it adds
  `Σ_{k < 512} a[p, k] · w[q, k]`. Its last store (at a run's last step) adds the bias row: at (p, q) it adds `b[0, q]`.
-/
import proofs.«132578_j24232205484135_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## The matrix product's operand indices, axis by axis -/

theorem lhs_dot_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dot_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dot_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a [1024, 512] block with a [512, 1024] block into the zero block, at (p, q): the sum over the 512
    shared coordinates of the row entry times the column entry. -/
theorem matmul_at (a : FVec Ideal S1024x512 .bf16) (bT : FVec Ideal S512x1024 .bf16) (i : S1024x1024.Idx) :
    matmul dot_S1024x512_S512x1024_S1024x1024_1_0_0_1_n_n none a bT (constant (F := Ideal) S1024x1024 .f32 0x00000000#32) i
      = ∑ k : Fin 512, a (ix2 (i 0) k) * bT (ix2 k (i 1)) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx i ((contrEquiv1 dot_S1024x512_S512x1024_S1024x1024_1_0_0_1_n_n 512 rfl rfl).symm k) = ix2 (i 0) k := funext fun a => Fin.ext (by
    match a with
    | ⟨0, _⟩ => exact lhs_dot_0 _ _
    | ⟨1, _⟩ => exact (lhs_dot_1 _ _).trans hk)
  have er : dot_S1024x512_S512x1024_S1024x1024_1_0_0_1_n_n.rhsIdx i ((contrEquiv1 dot_S1024x512_S512x1024_S1024x1024_1_0_0_1_n_n 512 rfl rfl).symm k) = ix2 k (i 1) := funext fun a => Fin.ext (by
    match a with
    | ⟨0, _⟩ => exact (rhs_dot_0 _ _).trans hk
    | ⟨1, _⟩ => exact rhs_dot_1 _ _)
  rw [el, er]
  rfl

/-! ## The three stored values at an index -/

/-- The first store writes zero everywhere. -/
theorem zero_at (i : S1024x1024.Idx) : k0_pay1 (F := Ideal) i = 0 := by
  unfold k0_pay1
  refine (congrFun (shapeCast_self _ _) i).trans ?_
  show Ideal.ofBits .f32 0x00000000#32 = 0
  exact Ideal.ofBits_zero_f32

/-- The accumulating store: the accumulator's entry plus the row of the activation block against the ROW of the
    weight block (the weight block enters transposed). -/
theorem step_at (v3 v5 : Vec Ideal S1024x512 .f32) (v8 : Vec Ideal S1024x1024 .f32) (i : S1024x1024.Idx) :
    k0_pay2 (F := Ideal) v3 v5 v8 i = v8 i + ∑ k : Fin 512, v3 (ix2 (i 0) k) * v5 (ix2 (i 1) k) := by
  unfold k0_pay2
  refine (congrFun (shapeCast_self _ _) i).trans ?_
  refine (addf_apply _ _ i).trans ?_
  refine congrArg (v8 i + ·) ?_
  refine (matmul_at _ _ i).trans ?_
  refine Finset.sum_congr rfl fun k _ => ?_
  refine congrArg (v3 (ix2 (i 0) k) * ·) ?_
  refine (transpose_apply [1, 0] _ transposes_S1024x512_p1_0_S512x1024 (ix2 k (i 1)) (ix2 (i 1) k)
    (fun b => match b with | ⟨0, _⟩ => rfl | ⟨1, _⟩ => rfl)).trans ?_
  exact congrFun (shapeCast_self v5 _) _

/-- The last store: the accumulator's entry plus the bias row's entry in the same column. -/
theorem bias_at (v18 : Vec Ideal S1024x1024 .f32) (v19 : Vec Ideal S1x1024 .f32) (i : S1024x1024.Idx) :
    k0_pay3 (F := Ideal) v18 v19 i = v18 i + v19 (ix2 0 (i 1)) := by
  unfold k0_pay3
  refine (addf_apply _ _ i).trans ?_
  refine congrArg (v18 i + ·) ?_
  refine (broadcastTo_apply _ broadcasts_S1x1024_S1024x1024 i (ix2 0 (i 1)) (fun a => match a with
    | ⟨0, _⟩ => by show (0 : ℕ) = if (1 : ℕ) = 1 then 0 else _; rw [if_pos rfl]
    | ⟨1, _⟩ => by show (i 1).val = if (1024 : ℕ) = 1 then 0 else (i 1).val; rw [if_neg (by decide)])).trans ?_
  exact congrFun (shapeCast_self v19 _) _

end Cert.KernelIdeal.PayloadAt

end
-- ==== Proof.BlockSum.lean ====
/-
  A sum over `n * B` consecutive naturals, regrouped into `n` consecutive blocks of `B`.

  In any commutative additive monoid — the extended reals among them, where `+` is commutative and associative
  (with `⊥ + ⊤ = ⊥`) although it does not cancel — the sum of `f 0, …, f (n * B - 1)` is the sum, over the block
  number `s < n`, of the block sums `f (B * s) + … + f (B * s + B - 1)`. No finiteness of the terms is used.
  This is the law between a contraction computed whole and the same contraction accumulated block by block.
-/
import Idealize.ShloMosaic.Lib.ValueIdx

open scoped BigOperators

namespace Cert.BlockSum

/-- Blocks over ranges of naturals: by induction on the number of blocks, each step splitting the last block off
    the long range. -/
theorem sum_range_blocks {β : Type*} [AddCommMonoid β] (f : ℕ → β) (B : ℕ) :
    ∀ n : ℕ, ∑ s ∈ Finset.range n, ∑ k ∈ Finset.range B, f (B * s + k) = ∑ K ∈ Finset.range (n * B), f K
  | 0 => by simp
  | n + 1 => by
    rw [Finset.sum_range_succ, sum_range_blocks f B n, Nat.succ_mul, Finset.sum_range_add, Nat.mul_comm n B]

/-- The same with the long sum and each block's sum indexed by `Fin`: the form a contraction index has. -/
theorem sum_fin_blocks {β : Type*} [AddCommMonoid β] (f : ℕ → β) (n B N : ℕ) (hN : n * B = N) :
    ∑ s ∈ Finset.range n, ∑ k : Fin B, f (B * s + k.val) = ∑ K : Fin N, f K.val := by
  subst hN
  rw [Fin.sum_univ_eq_sum_range (fun K => f K) (n * B), ← sum_range_blocks f B n]
  exact Finset.sum_congr rfl fun s _ => Fin.sum_univ_eq_sum_range (fun k => f (B * s + k)) B

end Cert.BlockSum
-- ==== Proof.Linear.lean ====
/-
  The function both programs compute, and its block-accumulated form.

  For an activation matrix `x` [8192, 4096], an effective weight matrix `W` [4096, 4096] (already multiplied by its
  expanded block mask — both programs build it by the same operations, so it stays a variable here) and a bias
  `b` [4096], the result is the affine map with the weight transposed,

      out[r, j] = Σ_{K < 4096} x[r, K] · W[j, K]  +  b[j],

  over the extended reals. Arrays are read through `nat2`, their extension by zero to all pairs of naturals, so that
  block arithmetic on coordinates (`1024 · i + p`, `512 · s + k`) is plain arithmetic on naturals; inside the array
  `nat2` IS the array (`nat2_val`, `eq_nat2`).

  `G_blocks`: the contraction over `K` cut into eight consecutive blocks of 512 and accumulated from zero is the same
  sum. Only commutativity and associativity of `+` are used (`Cert.BlockSum.sum_fin_blocks`): no term need be finite.
-/
import Idealize.ShloMosaic.Lib.ValueIdx
import proofs.«132578_j24232205484135_1_alg».proof.Proof.BlockSum

noncomputable section

open scoped BigOperators

namespace Cert.Linear

open Idealize.ShloMosaic Idealize.ShloMosaic.ValueIdx

/-- A rank-2 array read at a pair of naturals: its entry inside the array, zero outside. -/
def nat2 {n0 n1 : Nat} (X : (⟨2, ![n0, n1]⟩ : Shape).Idx → EReal) (a b : ℕ) : EReal :=
  if h : a < n0 ∧ b < n1 then X (ix2 ⟨a, h.1⟩ ⟨b, h.2⟩) else 0

/-- At the values of two coordinates it is the entry. -/
theorem nat2_val {n0 n1 : Nat} (X : (⟨2, ![n0, n1]⟩ : Shape).Idx → EReal) (a : Fin n0) (b : Fin n1) :
    nat2 X a.val b.val = X (ix2 a b) := by
  unfold nat2; rw [dif_pos ⟨a.isLt, b.isLt⟩]

/-- An entry is `nat2` at its coordinates' values, however those are spelt. -/
theorem eq_nat2 {n0 n1 : Nat} (X : (⟨2, ![n0, n1]⟩ : Shape).Idx → EReal) (i : (⟨2, ![n0, n1]⟩ : Shape).Idx) (a b : ℕ)
    (ha : (i 0).val = a) (hb : (i 1).val = b) : X i = nat2 X a b := by
  subst ha hb
  exact ((nat2_val X (i 0) (i 1)).trans (congrArg X (eq_ix2 i).symm)).symm

/-- The affine map with the weight transposed: row `r` of `x` against row `j` of `W`, plus `b[j]`. -/
def G (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ K : Fin 4096, nat2 x (i 0).val K.val * nat2 W (i 1).val K.val) + b (ix1 (i 1))

/-- One block's contribution at row `r` and column `j`: the products over the 512 contraction indices of block `s`. -/
def blockDot (x : (⟨2, ![8192, 4096]⟩ : Shape).Idx → EReal) (W : (⟨2, ![4096, 4096]⟩ : Shape).Idx → EReal)
    (r j s : ℕ) : EReal :=
  ∑ k : Fin 512, nat2 x r (512 * s + k.val) * nat2 W j (512 * s + k.val)

/-- The eight block contributions accumulated from zero, plus the bias, are the whole contraction plus the bias. -/
theorem G_blocks (x : (⟨2, ![8192, 4096]⟩ : Shape).Idx → EReal) (W : (⟨2, ![4096, 4096]⟩ : Shape).Idx → EReal)
    (b : (⟨1, ![4096]⟩ : Shape).Idx → EReal) (i : (⟨2, ![8192, 4096]⟩ : Shape).Idx) :
    (0 + ∑ s ∈ Finset.range 8, blockDot x W (i 0).val (i 1).val s) + b (ix1 (i 1)) = G x W b i := by
  unfold G blockDot
  rw [zero_add, Cert.BlockSum.sum_fin_blocks (fun K => nat2 x (i 0).val K * nat2 W (i 1).val K) 8 512 4096 rfl]

end Cert.Linear

end
-- ==== Proof.Blocks.lean ====
/-
  The kernel's output array, over the extended reals, is the specification of the arrays its region finds.

  The grid is 8 × 4 × 8: step `t = 32·i + 8·j + k` works on row block `i = t / 32`, column block `j = t / 8 % 4` and
  contraction block `k = t % 8`. Its activation block is rows `1024·i …`, columns `512·k …` of `x`; its weight block is
  rows `1024·j …`, columns `512·k …` of the effective weight; its bias block is columns `1024·j …` of the bias row.
  Eight consecutive steps `8·(t / 8) + s`, `s < 8`, share (i, j) and run `k` through 0 … 7.

  Each step adds `addend t` — at (p, q) the products over its 512 contraction indices of `x[1024·i + p, ·]` and
  `W[1024·j + q, ·]` — to the accumulator, which a run's first step resets to zero first. So after a run's last step
  the accumulator is `0 + Σ_{s < 8} addend (8·(t / 8) + s)` (the fold of the run, unrolled), and the block that step
  writes back is that plus the bias row: by `Cert.Linear.G_blocks`, block (i, j) of `Cert.Linear.G`. The 32 written
  blocks tile the [8192, 4096] output, so the array ends at `G`.
-/
import proofs.«132578_j24232205484135_1_alg».proof.Proof.Gen.KernelIdeal.Value
import proofs.«132578_j24232205484135_1_alg».proof.Proof.Pieces
import proofs.«132578_j24232205484135_1_alg».proof.Proof.PayloadAt
import proofs.«132578_j24232205484135_1_alg».proof.Proof.Linear
import Idealize.ShloMosaic.Lib.Pipeline.Value
import Idealize.ShloMosaic.Lib.ValueIdx

noncomputable section

open scoped BigOperators

namespace Cert.KernelIdeal.RefValue

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)
open Cert.Linear (nat2 eq_nat2 blockDot G G_blocks)

variable (m : (ℓ : Loc nD τ sig) → Buf (Elt Ideal) ℓ)

/-! ## The arrays the region finds, and the blocks a step loads -/

/-- The activations, the effective weight and the bias row as the region finds them. -/
abbrev xArr (c : Dev nD) : S8192x4096.Idx → EReal := V m c main_arg0
abbrev wArr (c : Dev nD) : S4096x4096.Idx → EReal := V m c main_v5
abbrev bArr (c : Dev nD) : S1x4096.Idx → EReal := V m c main_v6

/-- The blocks step `t` loads, at their literal types. -/
abbrev xBlk (c : Dev nD) (t : Fin cfg0.N) : Vec Ideal S1024x512 .f32 := iblk m c 0 t
abbrev wBlk (c : Dev nD) (t : Fin cfg0.N) : Vec Ideal S1024x512 .f32 := iblk m c 1 t
abbrev bBlk (c : Dev nD) (t : Fin cfg0.N) : Vec Ideal S1x1024 .f32 := iblk m c 2 t

/-- The printed index maps in closed form, decided over the grid's 256 steps. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The activation block's entry (p, k) is `x[1024·i + p, 512·k₀ + k]`. -/
theorem xBlk_at (c : Dev nD) (t : Fin cfg0.N) (y : S1024x512.Idx) :
    xBlk m c t y = nat2 (xArr m c) (1024 * (t.val / 32) + (y 0).val) (512 * (t.val % 8) + (y 1).val) := by
  obtain ⟨e0, e1, -⟩ := idx_facts t
  show V m c main_arg0 (((cfg0.win 0).blk t).view.emb y) = _
  refine eq_nat2 _ _ _ _ ?_ ?_
  · show win0_0.index t (0 : Fin 2) * 1024 + 1 * (y 0).val = _; rw [e0]; omega
  · show win0_0.index t (1 : Fin 2) * 512 + 1 * (y 1).val = _; rw [e1]; omega

/-- The weight block's entry (q, k) is `W[1024·j + q, 512·k₀ + k]`. -/
theorem wBlk_at (c : Dev nD) (t : Fin cfg0.N) (y : S1024x512.Idx) :
    wBlk m c t y = nat2 (wArr m c) (1024 * (t.val / 8 % 4) + (y 0).val) (512 * (t.val % 8) + (y 1).val) := by
  obtain ⟨-, -, e2, e3, -⟩ := idx_facts t
  show V m c main_v5 (((cfg0.win 1).blk t).view.emb y) = _
  refine eq_nat2 _ _ _ _ ?_ ?_
  · show win0_1.index t (0 : Fin 2) * 1024 + 1 * (y 0).val = _; rw [e2]; omega
  · show win0_1.index t (1 : Fin 2) * 512 + 1 * (y 1).val = _; rw [e3]; omega

/-- The bias block's entry (0, q) is the bias row's entry `1024·j + q`. -/
theorem bBlk_at (c : Dev nD) (t : Fin cfg0.N) (y : S1x1024.Idx) :
    bBlk m c t y = nat2 (bArr m c) (y 0).val (1024 * (t.val / 8 % 4) + (y 1).val) := by
  obtain ⟨-, -, -, -, e4, e5, -⟩ := idx_facts t
  show V m c main_v6 (((cfg0.win 2).blk t).view.emb y) = _
  refine eq_nat2 _ _ _ _ ?_ ?_
  · show win0_2.index t (0 : Fin 2) * 1 + 1 * (y 0).val = _; rw [e4]; omega
  · show win0_2.index t (1 : Fin 2) * 1024 + 1 * (y 1).val = _; rw [e5]; omega

/-! ## One step's addend, and the accumulator after a run -/

/-- What step `n` adds to the accumulator at block entry `y`: contraction block `n % 8` of row `1024·(n / 32) + p`
    of `x` against row `1024·(n / 8 % 4) + q` of the effective weight. -/
def addend (c : Dev nD) (n : ℕ) (y : S1024x1024.Idx) : EReal :=
  blockDot (xArr m c) (wArr m c) (1024 * (n / 32) + (y 0).val) (1024 * (n / 8 % 4) + (y 1).val) (n % 8)

/-- The step's product, block entries against block entries, is its addend. -/
theorem product_eq_addend (c : Dev nD) (t : Fin cfg0.N) (y : S1024x1024.Idx) :
    ∑ k : Fin 512, xBlk m c t (ix2 (y 0) k) * wBlk m c t (ix2 (y 1) k) = addend m c t.val y := by
  unfold addend blockDot
  refine Finset.sum_congr rfl fun k _ => ?_
  rw [xBlk_at, wBlk_at]

/-- What step `n` leaves in the accumulator over what it found: zero plus its addend at a run's first step, what it
    found plus its addend at any other. -/
theorem step_eq (c : Dev nD) (n : ℕ) (hb : n < cfg0.N) (acc : Vec Ideal S1024x1024 .f32) (y : S1024x1024.Idx) :
    scAt0_0 m c n hb acc y = (if n % 8 = 0 then 0 else acc y) + addend m c n y := by
  have hN : n < 256 := lt_of_lt_of_eq hb (show cfg0.N = 256 from N_0)
  unfold scAt0_0
  by_cases h0 : n % 8 = 0
  · have h1 : ¬n % 8 = 7 := by omega
    rw [dif_pos h0, dif_neg h1, if_pos h0]
    refine (congrFun (Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (xBlk m c ⟨n, hb⟩) (wBlk m c ⟨n, hb⟩) (bBlk m c ⟨n, hb⟩)) y).trans ?_
    refine (PayloadAt.step_at (xBlk m c ⟨n, hb⟩) (wBlk m c ⟨n, hb⟩) _ y).trans ?_
    rw [PayloadAt.zero_at, product_eq_addend]
  · rw [dif_neg h0, if_neg h0]
    by_cases h1 : n % 8 = 7
    · rw [dif_pos h1]
      refine (congrFun (Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (xBlk m c ⟨n, hb⟩) (wBlk m c ⟨n, hb⟩) (bBlk m c ⟨n, hb⟩) acc) y).trans ?_
      refine (PayloadAt.step_at (xBlk m c ⟨n, hb⟩) (wBlk m c ⟨n, hb⟩) acc y).trans ?_
      rw [product_eq_addend]
    · rw [dif_neg h1]
      refine (congrFun (Pieces.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (xBlk m c ⟨n, hb⟩) (wBlk m c ⟨n, hb⟩) (bBlk m c ⟨n, hb⟩) acc) y).trans ?_
      refine (PayloadAt.step_at (xBlk m c ⟨n, hb⟩) (wBlk m c ⟨n, hb⟩) acc y).trans ?_
      rw [product_eq_addend]

/-- After the last step of a run the accumulator holds zero plus the run's eight addends. -/
theorem acc_after_run (c : Dev nD) (t : Fin cfg0.N) (h7 : t.val % 8 = 7) (y : S1024x1024.Idx) :
    (outsAt0 m c t.val t.isLt).2 y = 0 + ∑ s ∈ Finset.range 8, addend m c (8 * (t.val / 8) + s) y := by
  refine (congrFun (soutsAt0_0_eq m c t) y).trans ?_
  refine (Pipeline.accAt_add_apply (ι := S1024x1024.Idx) (β := EReal)
    (fun n h => scAt0_0 m c n h (VS0_0.read (Elt Ideal) VS0_0.junk)) (scAt0_0 m c) (fun _ => (0 : EReal)) (addend m c)
    (8 * (t.val / 8)) 7 ?_ ?_ (t.val % 8) (by omega) _ y).trans ?_
  · intro h i
    refine (step_eq m c _ h _ i).trans ?_
    rw [if_pos (by omega)]
  · intro n h acc i hlt hle
    refine (step_eq m c n h acc i).trans ?_
    rw [if_neg (by omega)]
  · rw [h7]

/-! ## The block a run's last step writes back -/

/-- The specification at the arrays the region finds, the bias read off its one row. -/
abbrev result (c : Dev nD) : S8192x4096.Idx → EReal :=
  G (xArr m c) (wArr m c) (fun j => bArr m c (ix2 0 (j 0)))

/-- At a run's last step the accumulator is the step's store over what the step before left. -/
theorem acc_at_last (c : Dev nD) (t : Fin cfg0.N) (h0 : ¬t.val % 8 = 0) (h7 : t.val % 8 = 7) :
    (outsAt0 m c t.val t.isLt).2
      = k0_pay2 (F := Ideal) (xBlk m c t) (wBlk m c t) ((outsAt0 m c (t.val - 1) (Nat.lt_of_le_of_lt (Nat.sub_le _ _) t.isLt)).2) := by
  rw [outsAt0_C m c t h0 h7]
  dsimp only
  exact Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (xBlk m c t) (wBlk m c t) (bBlk m c t) _

/-- What a run's last step writes back is its block of `result`. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have h0 : ¬t.val % 8 = 0 := by omega
  obtain ⟨-, -, -, -, -, -, e6, e7⟩ := idx_facts t
  rw [flushed3_C m c t h0 h7]
  funext y
  show out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2 y
    = result m c (((cfg0.win 3).blk t).view.emb y)
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (xBlk m c t) (wBlk m c t) (bBlk m c t) _) y).trans ?_
  refine (PayloadAt.bias_at _ (bBlk m c t) y).trans ?_
  rw [← acc_at_last m c t h0 h7, acc_after_run m c t h7 y, bBlk_at]
  have hr : ((((cfg0.win 3).blk t).view.emb y) 0).val = 1024 * (t.val / 32) + (y 0).val := by
    show win0_3.index t (0 : Fin 2) * 1024 + 1 * (y 0).val = _; rw [e6]; omega
  have hj : ((((cfg0.win 3).blk t).view.emb y) 1).val = 1024 * (t.val / 8 % 4) + (y 1).val := by
    show win0_3.index t (1 : Fin 2) * 1024 + 1 * (y 1).val = _; rw [e7]; omega
  refine Eq.trans ?_ (G_blocks (xArr m c) (wArr m c) (fun j => bArr m c (ix2 0 (j 0))) (((cfg0.win 3).blk t).view.emb y))
  refine congrArg₂ (· + ·) (congrArg (0 + ·) (Finset.sum_congr rfl fun s hs => ?_)) ?_
  · have hs8 : s < 8 := Finset.mem_range.mp hs
    have e1 : (8 * (t.val / 8) + s) / 32 = t.val / 32 := by omega
    have e2 : (8 * (t.val / 8) + s) / 8 % 4 = t.val / 8 % 4 := by omega
    have e3 : (8 * (t.val / 8) + s) % 8 = s := by omega
    unfold addend
    rw [e1, e2, e3, hr, hj]
  · exact (eq_nat2 (bArr m c) (ix2 0 ((((cfg0.win 3).blk t).view.emb y) 1)) 0 (1024 * (t.val / 8 % 4) + (y 1).val) rfl hj).symm

/-! ## The written blocks tile the output -/

/-- An index is in step `t`'s output block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- Entry (r, j) of the output lies in the block the last step of run (r / 1024, j / 1024) writes back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  obtain ⟨-, -, -, -, -, -, e6, e7⟩ := idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; rw [e6]; omega
  | ⟨1, _⟩ => show win0_3.index t (1 : Fin 2) * 1024 ≤ (i 1).val ∧ (i 1).val < win0_3.index t (1 : Fin 2) * 1024 + 1024; rw [e7]; omega

/-- The output array after the run is `result`. -/
theorem final (c : Dev nD) : (dats m 0 c).arrAt 3 cfg0.N = result m c :=
  (dats m 0 c).arrAt_eq_of_cover 3 (result m c) (fun t hf => flushed_eq m c t hf) cover

end Cert.KernelIdeal.RefValue

end
-- ==== Proof.HostSide.lean ====
/-
  What the kernel's region finds in its two computed operands, over the extended reals.

  Before the region the kernel program builds the effective weight — the block mask clamped to [0, 1], each entry
  repeated over a 64 × 64 tile, times the weight — by the very operations the reference uses, so the array the
  region finds is the reference's fifth stage of the same two arguments (kept closed: nothing here looks inside the
  mask). The bias reaches the region reshaped to one row: entry (0, j) of that row is entry j of the bias.
-/
import proofs.«132578_j24232205484135_1_alg».proof.Proof.Gen.KernelIdeal.Frame
import proofs.«132578_j24232205484135_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The effective weight the region finds is the reference's stage of the weight and the block mask. -/
theorem V_weight (c : Dev nD) :
    (V m c main_v5 : S4096x4096.Idx → EReal)
      = Cert.ReferenceIdeal.Read.val_main_v5 (F := Ideal) (m ((c : Thread nD τ).loc main_arg1)) (m ((c : Thread nD τ).loc main_arg3)) := by
  dsimp only [Gen.V]
  simp only [hostOps0, hostOps0_1, hostOps0_2, List.flatten_cons, List.flatten_nil, List.append_nil, List.cons_append,
    List.nil_append]
  after_results
  rfl

/-- The bias row the region finds is the bias reshaped to [1, 4096]. -/
theorem V_bias (c : Dev nD) :
    (V m c main_v6 : S1x4096.Idx → EReal)
      = shapeCast S1x4096 (m ((c : Thread nD τ).loc main_arg2)) shapeCasts_S4096_S1x4096 := by
  dsimp only [Gen.V]
  simp only [hostOps0, hostOps0_1, hostOps0_2, List.flatten_cons, List.flatten_nil, List.append_nil, List.cons_append,
    List.nil_append]
  after_results
  rfl

/-- Its entry (0, j) is the bias's entry j: the same row-major position. -/
theorem V_bias_at (c : Dev nD) (j : Fin 4096) :
    (V m c main_v6 : S1x4096.Idx → EReal) (ix2 0 j) = m ((c : Thread nD τ).loc main_arg2) (ix1 j) := by
  rw [V_bias]
  exact shapeCast_apply _ shapeCasts_S4096_S1x4096 (ix2 0 j) (ix1 j)
    (by rw [Shape.rowMajor_val_one, Shape.rowMajor_val_two]; show j.val = 0 * 4096 + j.val; omega)

end Cert.KernelIdeal.HostSide

end
-- ==== Proof.KernelValue.lean ====
/-
  The kernel program's run, over the extended reals, with its result named as the specification of its arguments.

  The region finds the activations as launched, the effective weight as the reference's stage of the weight and the
  block mask, and the bias as one row; so the output array the run leaves — `Cert.Linear.G` of what the region finds —
  is `G` of the launched activations, that stage, and the launched bias.
-/
import proofs.«132578_j24232205484135_1_alg».proof.Proof.Blocks
import proofs.«132578_j24232205484135_1_alg».proof.Proof.HostSide

noncomputable section

namespace Cert.KernelIdeal.RefValue

open Cert.KernelIdeal Cert.KernelIdeal.Gen Cert.KernelIdeal.Value Idealize.ShloMosaic Idealize.ShloMosaic.TcCoe
open Idealize.ShloMosaic.ValueIdx Idealize.SL.Sem

variable (m : (ℓ : Loc nD τ sig) → Buf (Elt Ideal) ℓ) (ρ : Dev nD → PrngReg)

/-- The specification of what the region finds is the specification of the launched arguments. -/
theorem result_eq (c : Dev nD) :
    result m c = Cert.Linear.G (m ((c : Thread nD τ).loc main_arg0))
      (Cert.ReferenceIdeal.Read.val_main_v5 (F := Ideal) (m ((c : Thread nD τ).loc main_arg1)) (m ((c : Thread nD τ).loc main_arg3)))
      (m ((c : Thread nD τ).loc main_arg2)) := by
  have e0 : xArr m c = m ((c : Thread nD τ).loc main_arg0) := V_main_arg0 m c
  have e1 := HostSide.V_weight m c
  have e2 : (fun j : S4096.Idx => bArr m c (ix2 0 (j 0))) = m ((c : Thread nD τ).loc main_arg2) :=
    funext fun j => (HostSide.V_bias_at m c (j 0)).trans (congrArg (m ((c : Thread nD τ).loc main_arg2)) (eq_ix1 j).symm)
  exact congr (congr (congrArg Cert.Linear.G e0) e1) e2

/-- Every weakly fair execution of the kernel program ends with the output array at the specification of the launched
    arguments, and the arguments unchanged. -/
theorem run : θ_run defs (onTc (τ := τ) (main (F := Ideal))) ⟨m, fun _ => 0, ρ⟩ fun r => ∀ c : Dev nD,
      r.2.mem ((c : Thread nD τ).loc main_v7) = Cert.Linear.G (m ((c : Thread nD τ).loc main_arg0))
        (Cert.ReferenceIdeal.Read.val_main_v5 (F := Ideal) (m ((c : Thread nD τ).loc main_arg1)) (m ((c : Thread nD τ).loc main_arg3)))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (result_eq m c)), (h c).2⟩)
    (run_blocks (F := Ideal) m ρ)

end Cert.KernelIdeal.RefValue

end
-- ==== Proof.RefValue.lean ====
/-
  The reference program computes the specification.

  Read one operation at a time, its result at (r, j) is the host's contraction `Σ_K x[r, K] · Wᵀ[K, j]` — the
  transposed effective weight read back at [j, K] — plus the bias broadcast along the rows, `b[j]`: the function
  `Cert.Linear.G` of the activations, the effective weight (the reference's own fifth stage, kept closed) and the bias.
-/
import proofs.«132578_j24232205484135_1_alg».proof.Proof.Gen.ReferenceIdeal.Read
import proofs.«132578_j24232205484135_1_alg».proof.Proof.Linear

noncomputable section

open scoped BigOperators

namespace Cert.ReferenceIdeal.RefValue

open Cert.ReferenceIdeal Cert.ReferenceIdeal.Gen Cert.ReferenceIdeal.Read Idealize.ShloMosaic Idealize.ShloMosaic.ValueIdx

/-- The last stage is `G` of the activations, the masked weight and the bias, index by index. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S64x64, .f32⟩ : BufTy).Contents (Elt Ideal)) :
    val_main_v10 (F := Ideal) x0 x1 x2 x3 = Cert.Linear.G x0 (val_main_v5 (F := Ideal) x1 x3) x2 := by
  funext i
  rw [val_main_v10_apply, val_main_v7_apply, val_main_v9_apply, val_main_v8_apply]
  unfold Cert.Linear.G
  refine congrArg₂ (· + ·) (Finset.sum_congr rfl fun k _ => ?_) ?_
  · rw [val_main_v6_apply]
    exact congrArg₂ (· * ·)
      (Cert.Linear.eq_nat2 x0 (lidx_main_v7 i k) (i 0).val k.val rfl rfl)
      (Cert.Linear.eq_nat2 (val_main_v5 (F := Ideal) x1 x3) (idx_main_v6 (ridx_main_v7 i k)) (i 1).val k.val rfl rfl)
  · exact congrArg x2 (funext fun a => Fin.ext (by match a with | ⟨0, _⟩ => rfl))

end Cert.ReferenceIdeal.RefValue

end
-- ==== Proof.lean ====
/-
  A linear layer whose weight is multiplied by an expanded, clamped block mask, `out = x · (mask ∘ weight)ᵀ + bias`,
  computed by a kernel that tiles the product over an 8 × 4 × 8 grid and accumulates each output block over the eight
  blocks of the contraction axis, against the same layer written as one contraction.

  Over the extended reals the two agree entry by entry. Both programs build the effective weight by the same
  operations, so it is one term on both sides. The reference's entry (r, j) is `Σ_{K < 4096} x[r, K] · W[j, K] + b[j]`
  (`Cert.ReferenceIdeal.RefValue.result_eq`). The kernel's is `((0 + Σ_{K < 512} …) + … + Σ_{3584 ≤ K < 4096} …) + b[j]`,
  the narrowing of the operands to bf16 being the identity on extended reals; regrouping a sum needs only that `+` is
  commutative and associative (`Cert.BlockSum`), so no entry need be finite and the precondition is not used
  (`Cert.KernelIdeal.RefValue.run`). The three frames are the generated ones; the idealization rewrote nothing.
-/
import proofs.«132578_j24232205484135_1_alg».proof.Defs
import proofs.«132578_j24232205484135_1_alg».proof.Proof.Gen.Kernel
import proofs.«132578_j24232205484135_1_alg».proof.Proof.Gen.Kernel.Skeleton
import proofs.«132578_j24232205484135_1_alg».proof.Proof.Gen.Kernel.Launch
import proofs.«132578_j24232205484135_1_alg».proof.Proof.Gen.Kernel.Points
import proofs.«132578_j24232205484135_1_alg».proof.Proof.Gen.Kernel.Frame
import proofs.«132578_j24232205484135_1_alg».proof.Proof.Gen.KernelIdeal
import proofs.«132578_j24232205484135_1_alg».proof.Proof.Gen.KernelIdeal.Skeleton
import proofs.«132578_j24232205484135_1_alg».proof.Proof.Gen.KernelIdeal.Launch
import proofs.«132578_j24232205484135_1_alg».proof.Proof.Gen.KernelIdeal.Points
import proofs.«132578_j24232205484135_1_alg».proof.Proof.Gen.KernelIdeal.Frame
import proofs.«132578_j24232205484135_1_alg».proof.Proof.Gen.KernelIdeal.Value
import proofs.«132578_j24232205484135_1_alg».proof.Proof.Gen.ReferenceIdeal
import proofs.«132578_j24232205484135_1_alg».proof.Proof.Gen.ReferenceIdeal.Run
import proofs.«132578_j24232205484135_1_alg».proof.Proof.Gen.ReferenceIdeal.Read
import proofs.«132578_j24232205484135_1_alg».proof.Proof.Gen.Pre_finite_inputs
import proofs.«132578_j24232205484135_1_alg».proof.Proof.KernelValue
import proofs.«132578_j24232205484135_1_alg».proof.Proof.RefValue
import Idealize.ShloMosaic.Adequacy
import Idealize.ShloMosaic.Init

noncomputable section

namespace Cert.Proof

open Idealize.ShloMosaic Idealize.SL.Sem

/-- The kernel program as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the specification of the same arrays. -/
theorem algebraic : Cert.algebraic_KernelIdeal_ReferenceIdeal := by
  intro m ρ m' ρ' _ hagree
  refine ⟨_, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _ _).trans ?_
  refine (Cert.ReferenceIdeal.RefValue.result_eq _ _ _ _).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
